-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S1024x64 : Shape := ⟨2, ![1024, 64]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x1024x256 .f32) (main_arg1 : FVec F S16x1024x256 .f32) (main_arg2 : FVec F S1024x64 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x256 .f32 := Host.absf main_arg1
  let main_cst_0 : FVec F S_ .f32 := constant S_ .f32 0x7F800000#32
  let main_v5 : FVec F S16x1024x256 .f32 := broadcastInDim S16x1024x256 ![] bcast_S_S16x1024x256 main_cst_0
  let main_v6 : IVec S16x1024x256 1 := cmpf .olt main_v4 main_v5
  let main_c_1 : IVec S_ 1 := constantI S_ 1 1#1
  let main_v7 : IVec S_ 1 := (fun x v => Host.reduce IntOp.andi x v reducesTo_S16x1024x256_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Kernel.lean ====
abbrev S16x1024x256 : Shape := ⟨3, ![16, 1024, 256]⟩
abbrev S1024x64 : Shape := ⟨2, ![1024, 64]⟩
abbrev S16x1024x1024 : Shape := ⟨3, ![16, 1024, 1024]⟩
abbrev S16x1024x64 : Shape := ⟨3, ![16, 1024, 64]⟩
abbrev S1x1024x256 : Shape := ⟨3, ![1, 1024, 256]⟩
abbrev S1x1024x1024 : Shape := ⟨3, ![1, 1024, 1024]⟩
abbrev S1x1024x64 : Shape := ⟨3, ![1, 1024, 64]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S16x1024x1536 : Shape := ⟨3, ![16, 1024, 1536]⟩
abbrev S1x1024x1536 : Shape := ⟨3, ![1, 1024, 1536]⟩
abbrev S1024x1536 : Shape := ⟨2, ![1024, 1536]⟩

abbrev nBuf : Space → Nat
  | .hbm => 6
  | .vmem => 15
  | .smem => 0
  | _ => 0

abbrev bufTy : (tb : Table) → Fin (tcTables nBuf tb) → BufTy
  | .hbm, ⟨0, _⟩ => ⟨S16x1024x256, .f32⟩
  | .hbm, ⟨1, _⟩ => ⟨S16x1024x256, .f32⟩
  | .hbm, ⟨2, _⟩ => ⟨S1024x64, .f32⟩
  | .hbm, ⟨3, _⟩ => ⟨S16x1024x1024, .f32⟩
  | .hbm, ⟨4, _⟩ => ⟨S16x1024x64, .f32⟩
  | .hbm, ⟨5, _⟩ => ⟨S16x1024x1536, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1024x64, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x1536, .f32⟩
  | .local _ .vmem, ⟨14, _⟩ => ⟨S1x1024x1536, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  broadcasts_S1024x1_S1024x256 : S1024x1.Broadcasts S1024x256
  concatenates_S1024x256_S1024x256_S1024x256_S1024x256_S1024x256_S1024x256_S1024x1536_d1 : Shape.Concatenates [S1024x256, S1024x256, S1024x256, S1024x256, S1024x256, S1024x256] S1024x1536 1
  inb_S1x1024x1536_S1x1024x1536_0_0_0 : ∀ a, (![0, 0, 0] : Fin 3 → Nat) a + S1x1024x1536.size a ≤ S1x1024x1536.size a
  h_S1x1024x1536 : 0 < S1x1024x1536.numel
  shapeCasts_S1x1024x1536_S1024x1536 : S1x1024x1536.ShapeCasts S1024x1536
  shapeCasts_S1024x1536_S1x1024x1536 : S1024x1536.ShapeCasts S1x1024x1536
  dot_S1024x256_S1024x256_S1024x1024_1_1_0_0_n_n_wf : DotDims.WF S1024x256 S1024x256 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x1024x256.size a
  hwx0_1 : ∀ i : grid0.Coords, EltTy.bits .f32 = 32 ∨ (Rect.block (s := S16x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S16x1024x64.size a
  hwx0_4 : ∀ i : grid0.Coords, EltTy.bits .f32 = 32 ∨ (Rect.block (s := S16x1024x64) S1x1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S16x1024x256.size a
  hwx1_0 : ∀ i : grid1.Coords, EltTy.bits .f32 = 32 ∨ (Rect.block (s := S16x1024x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S16x1024x256.size a
  hwx1_1 : ∀ i : grid1.Coords, EltTy.bits .f32 = 32 ∨ (Rect.block (s := S16x1024x256) S1x1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1536.size a ≤ S16x1024x1536.size a
  hwx1_2 : ∀ i : grid1.Coords, EltTy.bits .f32 = 32 ∨ (Rect.block (s := S16x1024x1536) S1x1024x1536.size (cc1_transform_2 i) (hinb1_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x1536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x1024x256 : Shape := ⟨3, ![16, 1024, 256]⟩
abbrev S1024x64 : Shape := ⟨2, ![1024, 64]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩
abbrev S16x1024x64 : Shape := ⟨3, ![16, 1024, 64]⟩
abbrev S16x1024x1536 : Shape := ⟨3, ![16, 1024, 1536]⟩

abbrev nBuf : Space → Nat
  | .hbm => 40
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x256, .f32⟩
  | .hbm, ⟨2, _⟩ => ⟨S1024x64, .f32⟩
  | .hbm, ⟨3, _⟩ => ⟨S16x1024x1024, .f32⟩
  | .hbm, ⟨4, _⟩ => ⟨S16x1024x256, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024x256, .f32⟩
  | .hbm, ⟨12, _⟩ => ⟨S_, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1x1024, .f32⟩
  | .hbm, ⟨22, _⟩ => ⟨S16x1024x1024, .f32⟩
  | .hbm, ⟨23, _⟩ => ⟨S16x1024x1024, .f32⟩
  | .hbm, ⟨24, _⟩ => ⟨S16x1024x64, .f32⟩
  | .hbm, ⟨25, _⟩ => ⟨S16x1024x256, .f32⟩
  | .hbm, ⟨26, _⟩ => ⟨S16x1024x256, .f32⟩
  | .hbm, ⟨27, _⟩ => ⟨S_, .f32⟩
  | .hbm, ⟨28, _⟩ => ⟨S16x1024, .f32⟩
  | .hbm, ⟨29, _⟩ => ⟨S16x1024x1, .f32⟩
  | .hbm, ⟨30, _⟩ => ⟨S_, .f32⟩
  | .hbm, ⟨31, _⟩ => ⟨S16x1024x1, .f32⟩
  | .hbm, ⟨32, _⟩ => ⟨S16x1024x1, .f32⟩
  | .hbm, ⟨33, _⟩ => ⟨S16x1024x1, .f32⟩
  | .hbm, ⟨34, _⟩ => ⟨S16x1024x256, .f32⟩
  | .hbm, ⟨35, _⟩ => ⟨S16x1024x256, .f32⟩
  | .hbm, ⟨36, _⟩ => ⟨S16x1024x256, .f32⟩
  | .hbm, ⟨37, _⟩ => ⟨S16x1024x256, .f32⟩
  | .hbm, ⟨38, _⟩ => ⟨S16x1024x256, .f32⟩
  | .hbm, ⟨39, _⟩ => ⟨S16x1024x1536, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  reducesTo_S16x1024x256_S16x1024_d2 : S16x1024x256.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  bcast_S_S16x1024x1 : S_.BroadcastsInDim S16x1024x1 (![] : Fin 0 → Fin S16x1024x1.rank)
  bcast_S16x1024x1_S16x1024x256_0_1_2 : S16x1024x1.BroadcastsInDim S16x1024x256 (![0, 1, 2] : Fin 3 → Fin S16x1024x256.rank)
  concatenates_S16x1024x256_S16x1024x256_S16x1024x256_S16x1024x256_S16x1024x256_S16x1024x256_S16x1024x1536_d2 : Shape.Concatenates [S16x1024x256, S16x1024x256, S16x1024x256, S16x1024x256, S16x1024x256, S16x1024x256] S16x1024x1536 2
  dot_S16x1024x256_S16x1024x256_S16x1024x1024_2_2_1_1_0_0_wf : DotDims.WF S16x1024x256 S16x1024x256 S16x1024x1024 [2] [2] [1] [1] [0] [0]
  dot_S16x1024x1024_S1024x64_S16x1024x64_2_0_01_1_n_n_wf : DotDims.WF S16x1024x1024 S1024x64 S16x1024x64 [2] [0] [0, 1] [1] [] []

variable [Facts₀]

def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf
def dot_S16x1024x1024_S1024x64_S16x1024x64_2_0_01_1_n_n : DotDims S16x1024x1024 S1024x64 S16x1024x64 where
  lhsContracting := [2]
  rhsContracting := [0]
  lhsNonContracting := [0, 1]
  rhsNonContracting := [1]
  lhsBatch := []
  rhsBatch := []
  wf := dot_S16x1024x1024_S1024x64_S16x1024x64_2_0_01_1_n_n_wf

class Facts : Prop extends Facts₀ where

variable [Facts]
-- ==== Proof.Spec.lean ====
/-
  The specification: what the three results hold, entry by entry, as functions of the argument arrays.

  Each batch b is handled on its own. Write r = x1[b] and s = x2[b] for the batch's two slabs, 1024 rows of
  256 features each, over the extended reals.
  * the inner product of row i of r with row j of s: ∑ d, r i d · s j d;
  * the length of row i of r, clipped from below: sqrt (max (∑ d, r i d · r i d) ε₆), ε₆ the single-precision 1e-6;
  * match1[b, i, j] = (rowDot r s i j / len r i) / len s j: the cosine of the two rows;
  * match2[b, i, u] = ∑ j, rowDot r s i j · w[j, u]: the inner products of row i against a weight column;
  * match3[b, i, 256 p + d], p = 0 … 5: r i d, s i d, their sum, their product, the absolute value of their
    difference, and the difference over its row's clipped length sqrt (max (∑ e, (r i e − s i e)²) ε₁₂).
  The batch extent B of a slab's array is a parameter: the kernel sees one batch at a time (B = 1) and the
  reference all sixteen.
-/
import Idealize.ShloMosaic.PureOps.Ideal
import Idealize.ShloMosaic.Lib.ValueIdx

noncomputable section

namespace Cert.MatchSpec

open Idealize.ShloMosaic Idealize.ShloMosaic.ValueIdx

/-- One batch of an input: 1024 rows of 256 features. -/
abbrev Slab : Type := Fin 1024 → Fin 256 → EReal

/-- Batch `b` of an array of `B` batches. -/
def slab {B : ℕ} (X : (⟨3, ![B, 1024, 256]⟩ : Shape).Idx → EReal) (b : Fin B) : Slab := fun i d => X (ix3 b i d)

/-- The weight matrix by coordinates. -/
def weights (W : (⟨2, ![1024, 64]⟩ : Shape).Idx → EReal) : Fin 1024 → Fin 64 → EReal := fun j u => W (ix2 j u)

/-- The clip under the root of a row's length: single-precision 1e-6. -/
def eps6 : EReal := Ideal.ofBits .f32 0x358637BD#32
/-- The clip under the root of a difference's length: single-precision 1e-12. -/
def eps12 : EReal := Ideal.ofBits .f32 0x2B8CBCCC#32

/-- The inner product of row `i` of `r` with row `j` of `s`. -/
def rowDot (r s : Slab) (i j : Fin 1024) : EReal := ∑ d : Fin 256, r i d * s j d

/-- The clipped length of row `i`. -/
def len (r : Slab) (i : Fin 1024) : EReal := Ideal.sqrt (max (∑ d : Fin 256, r i d * r i d) eps6)

/-- The cosine of row `i` of `r` and row `j` of `s`: the inner product over one length, then over the other. -/
def cosAt (r s : Slab) (i j : Fin 1024) : EReal := Ideal.div (Ideal.div (rowDot r s i j) (len r i)) (len s j)

/-- Row `i`'s inner products against every row of `s`, weighted by column `u`. -/
def bilAt (r s : Slab) (w : Fin 1024 → Fin 64 → EReal) (i : Fin 1024) (u : Fin 64) : EReal :=
  ∑ j : Fin 1024, rowDot r s i j * w j u

/-- The difference of the two rows at feature `d`, over the clipped length of the rows' difference. -/
def unitDiff (r s : Slab) (i : Fin 1024) (d : Fin 256) : EReal :=
  Ideal.div (r i d - s i d) (Ideal.sqrt (max (∑ e : Fin 256, (r i e - s i e) * (r i e - s i e)) eps12))

/-- The six bands of features of row `i`, each 256 wide. -/
def featPiece (r s : Slab) (i : Fin 1024) (p : Fin 6) (d : Fin 256) : EReal :=
  match p with
  | ⟨0, _⟩ => r i d
  | ⟨1, _⟩ => s i d
  | ⟨2, _⟩ => r i d + s i d
  | ⟨3, _⟩ => r i d * s i d
  | ⟨4, _⟩ => max (r i d - s i d) (-(r i d - s i d))
  | ⟨5, _⟩ => unitDiff r s i d

/-- Feature `k` of row `i`: band `k / 256` at `k % 256`. -/
def featAt (r s : Slab) (i : Fin 1024) (k : Fin 1536) : EReal :=
  featPiece r s i ⟨k.val / 256, by have := k.isLt; omega⟩ ⟨k.val % 256, Nat.mod_lt _ (by decide)⟩

variable {B : ℕ}

/-- match1 as an array of `B` batches. -/
def cosine (X1 X2 : (⟨3, ![B, 1024, 256]⟩ : Shape).Idx → EReal) : (⟨3, ![B, 1024, 1024]⟩ : Shape).Idx → EReal :=
  fun y => cosAt (slab X1 (y 0)) (slab X2 (y 0)) (y 1) (y 2)

/-- match2 as an array of `B` batches. -/
def bilinear (X1 X2 : (⟨3, ![B, 1024, 256]⟩ : Shape).Idx → EReal) (W : (⟨2, ![1024, 64]⟩ : Shape).Idx → EReal) :
    (⟨3, ![B, 1024, 64]⟩ : Shape).Idx → EReal :=
  fun y => bilAt (slab X1 (y 0)) (slab X2 (y 0)) (weights W) (y 1) (y 2)

/-- match3 as an array of `B` batches. -/
def features (X1 X2 : (⟨3, ![B, 1024, 256]⟩ : Shape).Idx → EReal) : (⟨3, ![B, 1024, 1536]⟩ : Shape).Idx → EReal :=
  fun y => featAt (slab X1 (y 0)) (slab X2 (y 0)) (y 1) (y 2)

theorem cosine_ix (X1 X2 : (⟨3, ![B, 1024, 256]⟩ : Shape).Idx → EReal) (b : Fin B) (i j : Fin 1024) :
    cosine X1 X2 (ix3 b i j) = cosAt (slab X1 b) (slab X2 b) i j := rfl

theorem bilinear_ix (X1 X2 : (⟨3, ![B, 1024, 256]⟩ : Shape).Idx → EReal) (W : (⟨2, ![1024, 64]⟩ : Shape).Idx → EReal)
    (b : Fin B) (i : Fin 1024) (u : Fin 64) :
    bilinear X1 X2 W (ix3 b i u) = bilAt (slab X1 b) (slab X2 b) (weights W) i u := rfl

theorem features_ix (X1 X2 : (⟨3, ![B, 1024, 256]⟩ : Shape).Idx → EReal) (b : Fin B) (i : Fin 1024) (k : Fin 1536) :
    features X1 X2 (ix3 b i k) = featAt (slab X1 b) (slab X2 b) i k := rfl

end Cert.MatchSpec

end
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.LibMatmulTransposedRhs.lean ====
/-
  A general lemma. The matrix product of an [M, K] array by the TRANSPOSE of an [N, K] array (both operands
  contracted on their second axis, no batch axes), accumulated into the zero array and read at the exact
  instance, is at entry (p, q) the finite sum over the contraction coordinate k of left (p, k) · right (q, k).
  It holds for all sizes and both operands' formats.
-/
import Idealize.ShloMosaic.Lib.ValueIdx
import Idealize.ShloMosaic.PureOps.Ideal.Laws

namespace Idealize.ShloMosaic.MatmulTransposedRhs

open Idealize.ShloMosaic Idealize.ShloMosaic.ValueIdx

variable {M K N : ℕ}

/-- The left operand's row coordinate is the result's row coordinate. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the result's column coordinate. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry (p, q) of the product by the transpose, into a zero accumulator, is ∑ k, left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant ⟨2, ![M, N]⟩ .f32 0x00000000#32) (ix2 p q)
      = ∑ k : Fin K, l (ix2 p k) * r (ix2 q k) := by
  show FloatOps.matmul (DotDims.transposedRhs M K N) prec l r (constant ⟨2, ![M, N]⟩ .f32 0x00000000#32) (ix2 p q) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

end Idealize.ShloMosaic.MatmulTransposedRhs
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.TopBlock.lean ====
/-
  What the first kernel stores for one batch, entry by entry. With r and s the batch's two slabs:
  the block of match1 at (i, j) is the cosine of row i of r and row j of s — the product r · sᵀ at (i, j) is the inner
  product of the two rows, the row sums of squares are the squared lengths, one kept as a column and spread along the
  columns, the other turned into a row and spread along the rows; the block of match2 at (i, u) is the product of that
  same matrix of inner products with the weights, ∑ j, inner r s i j · w j u.
-/
import proofs.«147930_j34342558499030_1_alg».proof.Proof.Gen.KernelIdeal.Skeleton
import proofs.«147930_j34342558499030_1_alg».proof.Proof.Spec
import proofs.«147930_j34342558499030_1_alg».proof.Proof.LibColumnForms
import proofs.«147930_j34342558499030_1_alg».proof.Proof.LibMatmulTransposedRhs
import proofs.«147930_j34342558499030_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TopBlock

open Cert.KernelIdeal Cert.KernelIdeal.Gen Idealize.ShloMosaic Idealize.ShloMosaic.ValueIdx Cert.MatchSpec

/-- The first input's block as a matrix: row i, feature d of the batch's slab. -/
theorem rows1 (x : Vec Ideal S1x1024x256 .f32) (i : Fin 1024) (d : Fin 256) :
    k0_pay1 (F := Ideal) x (ix2 i d) = slab x 0 i d := by
  unfold k0_pay1
  exact shapeCast_1ab_ab_apply x _ i d

/-- The second input's block as a matrix. -/
theorem rows2 (x : Vec Ideal S1x1024x256 .f32) (i : Fin 1024) (d : Fin 256) :
    k0_pay2 (F := Ideal) x (ix2 i d) = slab x 0 i d := by
  unfold k0_pay2
  exact shapeCast_1ab_ab_apply x _ i d

/-- The product of the first matrix by the transpose of the second, at (i, j): the inner product of row i and row j. -/
theorem inner_block (x0 x1 : Vec Ideal S1x1024x256 .f32) (i j : Fin 1024) :
    k0_pay3 (F := Ideal) x0 x1 (ix2 i j) = rowDot (slab x0 0) (slab x1 0) i j := by
  unfold k0_pay3
  refine (MatmulTransposedRhs.matmul_zero_apply (M := 1024) (K := 256) (N := 1024) none _ _ i j).trans ?_
  unfold rowDot
  refine Finset.sum_congr rfl fun d _ => ?_
  show k0_pay1 (F := Ideal) x0 (ix2 i d) * k0_pay2 (F := Ideal) x1 (ix2 j d) = _
  rw [rows1, rows2]

/-- The clipped length of each row of a matrix whose entries are a slab's, kept as a column: the sum of the row's
    squares, clipped from below at ε₆, under the root. -/
theorem len_apply (M : FVec Ideal S1024x256 .f32) (r : Slab) (hM : ∀ i d, M (ix2 i d) = r i d) (i : Fin 1024) (u : Fin 1) :
    sqrt (maximumf (shapeCast S1024x1 (multiReduction .add [1] S1024 (mulf M M) 0x00000000#32 reduces_S1024x256_S1024 (.inl rfl) rfl)
        shapeCasts_S1024_S1024x1) (broadcast S1024x1 (Scalar.ofBits (F := Ideal) .f32 0x358637BD#32))) (ix2 i u) = len r i := by
  show Ideal.sqrt (max (shapeCast S1024x1 (multiReduction .add [1] S1024 (mulf M M) 0x00000000#32 reduces_S1024x256_S1024 (.inl rfl) rfl)
        shapeCasts_S1024_S1024x1 (ix2 i u)) eps6) = _
  rw [Cert.ColumnForms.shapeCast_a_a1_apply]
  unfold len
  refine congrArg (fun z => Ideal.sqrt (max z eps6)) ?_
  refine (Ideal.multiReduction_add_single (mulf M M) _ reduces_S1024x256_S1024 (.inl rfl) rfl (ix1 i)).trans ?_
  refine Finset.sum_congr rfl fun (d : Fin 256) _ => ?_
  refine (congrArg (mulf M M) (Cert.ColumnForms.lift_axis1 reduces_S1024x256_S1024 i d)).trans ?_
  show M (ix2 i d) * M (ix2 i d) = _
  rw [hM]

/-- The stored block of match1 at (0, i, j): the cosine of row i of the first slab and row j of the second. -/
theorem cosine_block (x0 x1 : Vec Ideal S1x1024x256 .f32) (i j : Fin 1024) :
    k0_pay4 (F := Ideal) x0 x1 (ix3 (0 : Fin 1) i j) = cosAt (slab x0 0) (slab x1 0) i j := by
  unfold k0_pay4
  refine (shapeCast_ab_1ab_apply _ _ (0 : Fin 1) i j).trans ?_
  show Ideal.div (Ideal.div (k0_pay3 (F := Ideal) x0 x1 (ix2 i j)) (broadcastTo S1024x1024 _ broadcasts_S1024x1_S1024x1024 (ix2 i j)))
      (broadcastTo S1024x1024 _ broadcasts_S1x1024_S1024x1024 (ix2 i j)) = _
  rw [inner_block, Cert.ColumnForms.broadcastTo_a1_ab_apply, broadcastTo_1b_ab_apply, transpose_ix2_apply,
    len_apply (k0_pay1 x0) (slab x0 0) (rows1 x0) i 0, len_apply (k0_pay2 x1) (slab x1 0) (rows2 x1) j 0]
  rfl

/-- The stored block of match2 at (0, i, u): the inner products of row i against every row of the second slab,
    weighted by column u. -/
theorem bilinear_block (x0 x1 : Vec Ideal S1x1024x256 .f32) (w : Vec Ideal S1024x64 .f32) (i : Fin 1024) (u : Fin 64) :
    k0_pay5 (F := Ideal) x0 x1 w (ix3 (0 : Fin 1) i u) = bilAt (slab x0 0) (slab x1 0) (weights w) i u := by
  unfold k0_pay5
  refine (shapeCast_ab_1ab_apply _ _ (0 : Fin 1) i u).trans ?_
  refine (MatmulPlain.matmul_zero_apply (M := 1024) (K := 1024) (N := 64) none _ _ i u).trans ?_
  unfold bilAt
  refine Finset.sum_congr rfl fun j _ => ?_
  show k0_pay3 (F := Ideal) x0 x1 (ix2 i j) * w (ix2 j u) = _
  rw [inner_block]
  rfl

end Cert.KernelIdeal.TopBlock

end
-- ==== Proof.FeatBlock.lean ====
/-
  What the second kernel stores for one batch: at row i and feature k of the block, band k / 256 of the six bands of
  features of the batch's two slabs, at k % 256.
-/
import proofs.«147930_j34342558499030_1_alg».proof.Proof.Gen.KernelIdeal.Skeleton
import proofs.«147930_j34342558499030_1_alg».proof.Proof.Spec
import proofs.«147930_j34342558499030_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FeatBlock

open Cert.KernelIdeal Cert.KernelIdeal.Gen Idealize.ShloMosaic Idealize.ShloMosaic.ValueIdx Cert.MatchSpec

open Cert.ColumnForms

/-! ## The pieces of the stored block, named -/

/-- A batch's block `[1, 1024, 256]` as a `[1024, 256]` array. -/
abbrev blk (x : Vec Ideal S1x1024x256 .f32) : FVec Ideal S1024x256 .f32 :=
  shapeCast S1024x256 x shapeCasts_S1x1024x256_S1024x256

/-- The difference of the two blocks. -/
abbrev dif (x0 x1 : Vec Ideal S1x1024x256 .f32) : FVec Ideal S1024x256 .f32 := subf (blk x0) (blk x1)

/-- Each row's sum of squared differences, as a lane per row. -/
abbrev sumsq (x0 x1 : Vec Ideal S1x1024x256 .f32) : FVec Ideal S1024 .f32 :=
  multiReduction (F := Ideal) .add [1] S1024 (mulf (dif x0 x1) (dif x0 x1)) 0x00000000#32 reduces_S1024x256_S1024 (.inl rfl) rfl

/-- Each row's clipped length of the difference, as a column. -/
abbrev norms (x0 x1 : Vec Ideal S1x1024x256 .f32) : FVec Ideal S1024x1 .f32 :=
  sqrt (maximumf (shapeCast S1024x1 (sumsq x0 x1) shapeCasts_S1024_S1024x1)
    (broadcast S1024x1 (Scalar.ofBits (F := Ideal) .f32 0x2B8CBCCC#32)))

/-- The six bands, side by side. -/
abbrev bands (x0 x1 : Vec Ideal S1x1024x256 .f32) : FVec Ideal S1024x1536 .f32 :=
  concatenate S1024x1536 1
    [⟨S1024x256, blk x0⟩, ⟨S1024x256, blk x1⟩, ⟨S1024x256, addf (blk x0) (blk x1)⟩, ⟨S1024x256, mulf (blk x0) (blk x1)⟩,
     ⟨S1024x256, absf (dif x0 x1)⟩,
     ⟨S1024x256, divf (dif x0 x1) (broadcastTo S1024x256 (norms x0 x1) broadcasts_S1024x1_S1024x256)⟩]
    concatenates_S1024x256_S1024x256_S1024x256_S1024x256_S1024x256_S1024x256_S1024x1536_d1

/-- The payload is the six bands with a leading unit axis. -/
theorem k1_pay1_eq (x0 x1 : Vec Ideal S1x1024x256 .f32) :
    k1_pay1 (F := Ideal) x0 x1 = shapeCast S1x1024x1536 (bands x0 x1) shapeCasts_S1024x1536_S1x1024x1536 := rfl

/-! ## Each piece at an index -/

/-- A batch's block read at `(i, d)` is the batch's slab there. -/
theorem blk_apply (x : Vec Ideal S1x1024x256 .f32) (i : Fin 1024) (d : Fin 256) :
    blk x (ix2 i d) = slab x 0 i d :=
  shapeCast_1ab_ab_apply x shapeCasts_S1x1024x256_S1024x256 i d

/-- The difference of the blocks at `(i, d)`. -/
theorem dif_apply (x0 x1 : Vec Ideal S1x1024x256 .f32) (i : Fin 1024) (d : Fin 256) :
    dif x0 x1 (ix2 i d) = slab x0 0 i d - slab x1 0 i d := by
  refine (subf_apply (blk x0) (blk x1) (ix2 i d)).trans ?_
  rw [blk_apply, blk_apply]

/-- Row `i`'s sum of squared differences. -/
theorem sumsq_apply (x0 x1 : Vec Ideal S1x1024x256 .f32) (i : Fin 1024) :
    sumsq x0 x1 (ix1 i)
      = ∑ e : Fin 256, (slab x0 0 i e - slab x1 0 i e) * (slab x0 0 i e - slab x1 0 i e) := by
  refine (Ideal.multiReduction_add_single (mulf (dif x0 x1) (dif x0 x1)) 0x00000000#32 reduces_S1024x256_S1024
    (.inl rfl) rfl (ix1 i)).trans ?_
  show (∑ e : Fin 256, mulf (dif x0 x1) (dif x0 x1) (reduces_S1024x256_S1024.lift (ix1 i) e)) = _
  refine Finset.sum_congr rfl fun (e : Fin 256) _ => ?_
  refine (congrArg (mulf (dif x0 x1) (dif x0 x1)) (lift_axis1 reduces_S1024x256_S1024 i e)).trans ?_
  refine (mulf_apply (dif x0 x1) (dif x0 x1) (ix2 i e)).trans ?_
  rw [dif_apply]

/-- Row `i`'s clipped length of the difference. -/
theorem norms_apply (x0 x1 : Vec Ideal S1x1024x256 .f32) (i : Fin 1024) (u : Fin 1) :
    norms x0 x1 (ix2 i u)
      = Ideal.sqrt (max (∑ e : Fin 256, (slab x0 0 i e - slab x1 0 i e) * (slab x0 0 i e - slab x1 0 i e)) eps12) := by
  show Ideal.sqrt (max (shapeCast S1024x1 (sumsq x0 x1) shapeCasts_S1024_S1024x1 (ix2 i u)) eps12) = _
  rw [shapeCast_a_a1_apply (sumsq x0 x1) shapeCasts_S1024_S1024x1 i u, sumsq_apply]

/-- The last band at `(i, d)`: the difference over its row's clipped length. -/
theorem unit_apply (x0 x1 : Vec Ideal S1x1024x256 .f32) (i : Fin 1024) (d : Fin 256) :
    divf (dif x0 x1) (broadcastTo S1024x256 (norms x0 x1) broadcasts_S1024x1_S1024x256) (ix2 i d)
      = unitDiff (slab x0 0) (slab x1 0) i d := by
  refine (divf_apply _ _ (ix2 i d)).trans ?_
  rw [dif_apply, broadcastTo_a1_ab_apply (norms x0 x1) broadcasts_S1024x1_S1024x256 i d, norms_apply]
  rfl

/-! ## The six bands at an index -/

/-- One of six values by its number. -/
def pick6 {β : Type} (a0 a1 a2 a3 a4 a5 : β) : Fin 6 → β
  | ⟨0, _⟩ => a0
  | ⟨1, _⟩ => a1
  | ⟨2, _⟩ => a2
  | ⟨3, _⟩ => a3
  | ⟨4, _⟩ => a4
  | ⟨5, _⟩ => a5

/-- Six `[1024, 256]` pieces side by side along axis 1, read at `(i, 256 p + d)`: piece `p` at `(i, d)`. -/
theorem concat6_apply {α : Type} (q0 q1 q2 q3 q4 q5 : (⟨2, ![1024, 256]⟩ : Shape).Idx → α)
    (h : Shape.Concatenates [S1024x256, S1024x256, S1024x256, S1024x256, S1024x256, S1024x256] S1024x1536 1)
    (i : Fin 1024) (k : Fin 1536) (p : Fin 6) (d : Fin 256) (hk : k.val = 256 * p.val + d.val) :
    concatenate S1024x1536 1
        [⟨S1024x256, q0⟩, ⟨S1024x256, q1⟩, ⟨S1024x256, q2⟩, ⟨S1024x256, q3⟩, ⟨S1024x256, q4⟩, ⟨S1024x256, q5⟩] h (ix2 i k)
      = pick6 q0 q1 q2 q3 q4 q5 p (ix2 i d) := by
  refine concatenate_apply_piece (t := S1024x1536) (1 : Fin 2)
    [⟨S1024x256, q0⟩, ⟨S1024x256, q1⟩, ⟨S1024x256, q2⟩, ⟨S1024x256, q3⟩, ⟨S1024x256, q4⟩, ⟨S1024x256, q5⟩] h (ix2 i k)
    p.val p.isLt S1024x256 (pick6 q0 q1 q2 q3 q4 q5 p) ?_ rfl (256 * p.val) ?_ (ix2 i d) ?_ ?_
  · match p with
    | ⟨0, _⟩ => rfl
    | ⟨1, _⟩ => rfl
    | ⟨2, _⟩ => rfl
    | ⟨3, _⟩ => rfl
    | ⟨4, _⟩ => rfl
    | ⟨5, _⟩ => rfl
  · match p with
    | ⟨0, _⟩ => rfl
    | ⟨1, _⟩ => rfl
    | ⟨2, _⟩ => rfl
    | ⟨3, _⟩ => rfl
    | ⟨4, _⟩ => rfl
    | ⟨5, _⟩ => rfl
  · intro b hb
    match b with
    | ⟨0, _⟩ => rfl
    | ⟨1, _⟩ => exact absurd (Fin.ext rfl) hb
  · exact hk.symm

/-! ## The specification's feature by band and offset -/

/-- Feature `256 p + d` of a row is band `p` at `d`. -/
theorem featAt_split (r s : Slab) (i : Fin 1024) (k : Fin 1536) (p : Fin 6) (d : Fin 256) (hk : k.val = 256 * p.val + d.val) :
    featAt r s i k = featPiece r s i p d := by
  have hp : (⟨k.val / 256, by have := k.isLt; omega⟩ : Fin 6) = p := Fin.ext (by have := d.isLt; show k.val / 256 = p.val; omega)
  have hd : (⟨k.val % 256, Nat.mod_lt _ (by decide)⟩ : Fin 256) = d := Fin.ext (by have := d.isLt; show k.val % 256 = d.val; omega)
  unfold featAt
  rw [hp, hd]

/-! ## The stored block -/

/-- The stored block of the second kernel at (0, i, k). -/
theorem features_block (x0 x1 : Vec Ideal S1x1024x256 .f32) (i : Fin 1024) (k : Fin 1536) :
    k1_pay1 (F := Ideal) x0 x1 (ix3 (0 : Fin 1) i k) = featAt (slab x0 0) (slab x1 0) i k := by
  obtain ⟨p, d, hk⟩ : ∃ (p : Fin 6) (d : Fin 256), k.val = 256 * p.val + d.val :=
    ⟨⟨k.val / 256, by have := k.isLt; omega⟩, ⟨k.val % 256, Nat.mod_lt _ (by decide)⟩, by
      show k.val = 256 * (k.val / 256) + k.val % 256
      omega⟩
  rw [k1_pay1_eq, featAt_split _ _ i k p d hk]
  refine (shapeCast_ab_1ab_apply (bands x0 x1) shapeCasts_S1024x1536_S1x1024x1536 (0 : Fin 1) i k).trans ?_
  refine (concat6_apply _ _ _ _ _ _ _ i k p d hk).trans ?_
  match p with
  | ⟨0, _⟩ => exact blk_apply x0 i d
  | ⟨1, _⟩ => exact blk_apply x1 i d
  | ⟨2, _⟩ =>
    refine (addf_apply (blk x0) (blk x1) (ix2 i d)).trans ?_
    rw [blk_apply, blk_apply]
    rfl
  | ⟨3, _⟩ =>
    refine (mulf_apply (blk x0) (blk x1) (ix2 i d)).trans ?_
    rw [blk_apply, blk_apply]
    rfl
  | ⟨4, _⟩ =>
    show max (dif x0 x1 (ix2 i d)) (-(dif x0 x1 (ix2 i d))) = _
    rw [dif_apply]
    rfl
  | ⟨5, _⟩ => exact unit_apply x0 x1 i d

end Cert.KernelIdeal.FeatBlock

end
-- ==== Proof.Arrays.lean ====
/-
  From blocks to arrays. The grid of each kernel has one point per batch: point t reads batch t of each input (the
  weights whole) and writes batch t of each result. So the block a point writes back is the block of the
  specification's array of the whole inputs, the sixteen blocks cover each result array, and each result array
  ends as the specification's array of the arguments.
-/
import proofs.«147930_j34342558499030_1_alg».proof.Proof.Gen.KernelIdeal.Frame
import proofs.«147930_j34342558499030_1_alg».proof.Proof.RunNamed
import proofs.«147930_j34342558499030_1_alg».proof.Proof.TopBlock
import proofs.«147930_j34342558499030_1_alg».proof.Proof.FeatBlock
import proofs.«147930_j34342558499030_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem Cert.MatchSpec
open Idealize.ShloMosaic.Pipeline (Dat Cfg Window)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first kernel: its block indices, decided over the sixteen points -/

/-- Point t of the first kernel works on batch t: every batched window's block index is (t, 0, 0), the weights' (0, 0). -/
theorem idx0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The batch a point of the first kernel works on. -/
abbrev batch0 (t : Fin cfg0.N) : Fin 16 := ⟨t.val, t.isLt⟩

section Region0
variable (V : (c : Dev nD) → (b : Ref sig .tc) → Buf (Elt Ideal) ((c : Thread nD τ).loc b))

/-- The arrays as the first kernel finds them, and its input blocks at a point, at their literal types. -/
abbrev arrA (c : Dev nD) : Vec Ideal S16x1024x256 .f32 := V c main_arg0
abbrev arrB (c : Dev nD) : Vec Ideal S16x1024x256 .f32 := V c main_arg1
abbrev arrW (c : Dev nD) : Vec Ideal S1024x64 .f32 := V c main_arg2
abbrev blkA (c : Dev nD) (t : Fin cfg0.N) : Vec Ideal S1x1024x256 .f32 := iblk0 V c 0 t
abbrev blkB (c : Dev nD) (t : Fin cfg0.N) : Vec Ideal S1x1024x256 .f32 := iblk0 V c 1 t
abbrev blkW (c : Dev nD) (t : Fin cfg0.N) : Vec Ideal S1024x64 .f32 := iblk0 V c 2 t

/-- The first input's block at point t is batch t of the first input. -/
theorem slab_blkA (c : Dev nD) (t : Fin cfg0.N) : slab (B := 1) (blkA V c t) 0 = slab (B := 16) (arrA V c) (batch0 t) := by
  funext i d
  show V c main_arg0 (((cfg0.win 0).blk t).view.emb (ix3 (0 : Fin 1) i d)) = V c main_arg0 (ix3 (batch0 t) i d)
  refine congrArg _ (funext fun a => Fin.ext ?_)
  obtain ⟨e0, e1, e2, -⟩ := idx0 t
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 256 + 1 * d.val = d.val; omega

/-- The second input's block at point t is batch t of the second input. -/
theorem slab_blkB (c : Dev nD) (t : Fin cfg0.N) : slab (B := 1) (blkB V c t) 0 = slab (B := 16) (arrB V c) (batch0 t) := by
  funext i d
  show V c main_arg1 (((cfg0.win 1).blk t).view.emb (ix3 (0 : Fin 1) i d)) = V c main_arg1 (ix3 (batch0 t) i d)
  refine congrArg _ (funext fun a => Fin.ext ?_)
  obtain ⟨-, -, -, e0, e1, e2, -⟩ := idx0 t
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 256 + 1 * d.val = d.val; omega

/-- The weights' block at every point is the whole weight matrix. -/
theorem weights_blkW (c : Dev nD) (t : Fin cfg0.N) : weights (blkW V c t) = weights (arrW V c) := by
  funext j u
  show V c main_arg2 (((cfg0.win 2).blk t).view.emb (ix2 j u)) = V c main_arg2 (ix2 j u)
  refine congrArg _ (funext fun a => Fin.ext ?_)
  obtain ⟨-, -, -, -, -, -, e0, e1, -⟩ := idx0 t
  match a with
  | ⟨0, _⟩ => show win0_2.index t (0 : Fin 2) * 1024 + 1 * j.val = j.val; omega
  | ⟨1, _⟩ => show win0_2.index t (1 : Fin 2) * 64 + 1 * u.val = u.val; omega

/-- A block of match1 computed from batch b of both inputs is the block of the whole cosine array at batch b. -/
theorem cosine_flush (x0 x1 : Vec Ideal S1x1024x256 .f32) (X1 X2 : Vec Ideal S16x1024x256 .f32) (b : Fin 16)
    (h0 : slab (B := 1) x0 0 = slab (B := 16) X1 b) (h1 : slab (B := 1) x1 0 = slab (B := 16) X2 b)
    (e : S1x1024x1024.Idx → S16x1024x1024.Idx) (he : ∀ (u : Fin 1) (i j : Fin 1024), e (ix3 u i j) = ix3 b i j) :
    k0_pay4 (F := Ideal) x0 x1 = fun y => cosine (B := 16) X1 X2 (e y) := by
  funext y
  obtain ⟨u, i, j, rfl⟩ : ∃ (u : Fin 1) (i j : Fin 1024), y = ix3 u i j := ⟨y 0, y 1, y 2, eq_ix3 y⟩
  have hu : u = 0 := Fin.ext (by omega)
  subst hu
  rw [TopBlock.cosine_block, he, cosine_ix, h0, h1]

/-- A block of match2 computed from batch b of both inputs and the whole weights is the block of the whole array. -/
theorem bilinear_flush (x0 x1 : Vec Ideal S1x1024x256 .f32) (w : Vec Ideal S1024x64 .f32)
    (X1 X2 : Vec Ideal S16x1024x256 .f32) (W : Vec Ideal S1024x64 .f32) (b : Fin 16)
    (h0 : slab (B := 1) x0 0 = slab (B := 16) X1 b) (h1 : slab (B := 1) x1 0 = slab (B := 16) X2 b) (hw : weights w = weights W)
    (e : S1x1024x64.Idx → S16x1024x64.Idx) (he : ∀ (u : Fin 1) (i : Fin 1024) (v : Fin 64), e (ix3 u i v) = ix3 b i v) :
    k0_pay5 (F := Ideal) x0 x1 w = fun y => bilinear (B := 16) X1 X2 W (e y) := by
  funext y
  obtain ⟨u, i, v, rfl⟩ : ∃ (u : Fin 1) (i : Fin 1024) (v : Fin 64), y = ix3 u i v := ⟨y 0, y 1, y 2, eq_ix3 y⟩
  have hu : u = 0 := Fin.ext (by omega)
  subst hu
  rw [TopBlock.bilinear_block, he, bilinear_ix, h0, h1, hw]

/-- Where an entry of point t's block of match1 lies in the array: batch t, same row and column. -/
theorem emb0_3 (t : Fin cfg0.N) (u : Fin 1) (i j : Fin 1024) :
    ((cfg0.win 3).blk t).view.emb (ix3 u i j) = ix3 (batch0 t) i j := by
  obtain ⟨-, -, -, -, -, -, -, -, e0, e1, e2, -⟩ := idx0 t
  funext a; apply Fin.ext
  have hu : u.val = 0 := by omega
  match a with
  | ⟨0, _⟩ => show win0_3.index t (0 : Fin 3) * 1 + 1 * u.val = t.val; omega
  | ⟨1, _⟩ => show win0_3.index t (1 : Fin 3) * 1024 + 1 * i.val = i.val; omega
  | ⟨2, _⟩ => show win0_3.index t (2 : Fin 3) * 1024 + 1 * j.val = j.val; omega

/-- Where an entry of point t's block of match2 lies in the array. -/
theorem emb0_4 (t : Fin cfg0.N) (u : Fin 1) (i : Fin 1024) (v : Fin 64) :
    ((cfg0.win 4).blk t).view.emb (ix3 u i v) = ix3 (batch0 t) i v := by
  obtain ⟨-, -, -, -, -, -, -, -, -, -, -, e0, e1, e2⟩ := idx0 t
  funext a; apply Fin.ext
  have hu : u.val = 0 := by omega
  match a with
  | ⟨0, _⟩ => show win0_4.index t (0 : Fin 3) * 1 + 1 * u.val = t.val; omega
  | ⟨1, _⟩ => show win0_4.index t (1 : Fin 3) * 1024 + 1 * i.val = i.val; omega
  | ⟨2, _⟩ => show win0_4.index t (2 : Fin 3) * 64 + 1 * v.val = v.val; omega

/-- What point t writes back to match1 is block t of the cosine array of the inputs as the kernel finds them. -/
theorem flushed0_3_eq (c : Dev nD) (t : Fin cfg0.N) :
    (dat0 V c).flushed 3 t = ((cfg0.win 3).blk t).view.read (Elt Ideal) (cosine (B := 16) (arrA V c) (arrB V c)) := by
  show (cfg0.win 3).cut (grid0.coords t) ((dat0 V c).after 3 t) = _
  rw [after0_3]
  unfold out0_3
  rw [View.canon_unit_zero hz3]
  simp only [View.ld_unit_zero (S := S1x1024x256) hz3]
  exact cosine_flush (blkA V c t) (blkB V c t) (arrA V c) (arrB V c) (batch0 t) (slab_blkA V c t) (slab_blkB V c t)
    (fun y => ((cfg0.win 3).blk t).view.emb y) (emb0_3 t)

/-- What point t writes back to match2 is block t of the weighted array. -/
theorem flushed0_4_eq (c : Dev nD) (t : Fin cfg0.N) :
    (dat0 V c).flushed 4 t = ((cfg0.win 4).blk t).view.read (Elt Ideal) (bilinear (B := 16) (arrA V c) (arrB V c) (arrW V c)) := by
  show (cfg0.win 4).cut (grid0.coords t) ((dat0 V c).after 4 t) = _
  rw [after0_4]
  unfold out0_4
  rw [View.canon_unit_zero hz3]
  simp only [View.ld_unit_zero (S := S1x1024x256) hz3, View.ld_unit_zero (S := S1024x64) hz2]
  exact bilinear_flush (blkA V c t) (blkB V c t) (blkW V c t) (arrA V c) (arrB V c) (arrW V c) (batch0 t)
    (slab_blkA V c t) (slab_blkB V c t) (weights_blkW V c t) (fun y => ((cfg0.win 4).blk t).view.emb y) (emb0_4 t)

/-- An entry of match1 is in point t's block iff each coordinate is in the block's range. -/
theorem mem_blk0_3 (t : Fin cfg0.N) (y : S16x1024x1024.Idx) :
    y ∈ ((cfg0.win 3).blk t).view.set ↔ ∀ a : Fin 3, win0_3.index t a * S1x1024x1024.size a ≤ (y a).val
      ∧ (y a).val < win0_3.index t a * S1x1024x1024.size a + S1x1024x1024.size a := by
  show y ∈ ((View.whole main_v0_0).slice (win0_3.rect t)).set ↔ _
  rw [View.set_slice_whole, Rect.mem_set_unit]
  exact Iff.rfl

theorem mem_blk0_4 (t : Fin cfg0.N) (y : S16x1024x64.Idx) :
    y ∈ ((cfg0.win 4).blk t).view.set ↔ ∀ a : Fin 3, win0_4.index t a * S1x1024x64.size a ≤ (y a).val
      ∧ (y a).val < win0_4.index t a * S1x1024x64.size a + S1x1024x64.size a := by
  show y ∈ ((View.whole main_v0_1).slice (win0_4.rect t)).set ↔ _
  rw [View.set_slice_whole, Rect.mem_set_unit]
  exact Iff.rfl

/-- Every entry of match1 is in the block of the point of its batch. -/
theorem cover0_3 (y : S16x1024x1024.Idx) : ∃ t : Fin cfg0.N, (cfg0.win 3).flush t = true ∧ y ∈ ((cfg0.win 3).blk t).view.set := by
  have h0 : (y 0).val < 16 := (y 0).isLt
  have h1 : (y 1).val < 1024 := (y 1).isLt
  have h2 : (y 2).val < 1024 := (y 2).isLt
  refine ⟨⟨(y 0).val, h0⟩, flush0_3 _, ?_⟩
  rw [mem_blk0_3]
  obtain ⟨-, -, -, -, -, -, -, -, e0, e1, e2, -⟩ := idx0 ⟨(y 0).val, h0⟩
  have e0' : win0_3.index ⟨(y 0).val, h0⟩ (0 : Fin 3) = (y 0).val := e0
  intro a
  match a with
  | ⟨0, _⟩ => show win0_3.index ⟨(y 0).val, h0⟩ (0 : Fin 3) * 1 ≤ (y 0).val ∧ (y 0).val < win0_3.index ⟨(y 0).val, h0⟩ (0 : Fin 3) * 1 + 1; omega
  | ⟨1, _⟩ => show win0_3.index ⟨(y 0).val, h0⟩ (1 : Fin 3) * 1024 ≤ (y 1).val ∧ (y 1).val < win0_3.index ⟨(y 0).val, h0⟩ (1 : Fin 3) * 1024 + 1024; omega
  | ⟨2, _⟩ => show win0_3.index ⟨(y 0).val, h0⟩ (2 : Fin 3) * 1024 ≤ (y 2).val ∧ (y 2).val < win0_3.index ⟨(y 0).val, h0⟩ (2 : Fin 3) * 1024 + 1024; omega

/-- Every entry of match2 is in the block of the point of its batch. -/
theorem cover0_4 (y : S16x1024x64.Idx) : ∃ t : Fin cfg0.N, (cfg0.win 4).flush t = true ∧ y ∈ ((cfg0.win 4).blk t).view.set := by
  have h0 : (y 0).val < 16 := (y 0).isLt
  have h1 : (y 1).val < 1024 := (y 1).isLt
  have h2 : (y 2).val < 64 := (y 2).isLt
  refine ⟨⟨(y 0).val, h0⟩, flush0_4 _, ?_⟩
  rw [mem_blk0_4]
  obtain ⟨-, -, -, -, -, -, -, -, -, -, -, e0, e1, e2⟩ := idx0 ⟨(y 0).val, h0⟩
  have e0' : win0_4.index ⟨(y 0).val, h0⟩ (0 : Fin 3) = (y 0).val := e0
  intro a
  match a with
  | ⟨0, _⟩ => show win0_4.index ⟨(y 0).val, h0⟩ (0 : Fin 3) * 1 ≤ (y 0).val ∧ (y 0).val < win0_4.index ⟨(y 0).val, h0⟩ (0 : Fin 3) * 1 + 1; omega
  | ⟨1, _⟩ => show win0_4.index ⟨(y 0).val, h0⟩ (1 : Fin 3) * 1024 ≤ (y 1).val ∧ (y 1).val < win0_4.index ⟨(y 0).val, h0⟩ (1 : Fin 3) * 1024 + 1024; omega
  | ⟨2, _⟩ => show win0_4.index ⟨(y 0).val, h0⟩ (2 : Fin 3) * 64 ≤ (y 2).val ∧ (y 2).val < win0_4.index ⟨(y 0).val, h0⟩ (2 : Fin 3) * 64 + 64; omega

/-- match1 after the first kernel: the cosine array of the inputs as the kernel finds them. -/
theorem final0_3 (c : Dev nD) : (dat0 V c).arrAt 3 cfg0.N = cosine (B := 16) (arrA V c) (arrB V c) :=
  (dat0 V c).arrAt_eq_of_cover 3 (cosine (B := 16) (arrA V c) (arrB V c)) (fun t _ => flushed0_3_eq V c t) cover0_3

/-- match2 after the first kernel: the weighted array of the inputs and weights as the kernel finds them. -/
theorem final0_4 (c : Dev nD) : (dat0 V c).arrAt 4 cfg0.N = bilinear (B := 16) (arrA V c) (arrB V c) (arrW V c) :=
  (dat0 V c).arrAt_eq_of_cover 4 (bilinear (B := 16) (arrA V c) (arrB V c) (arrW V c)) (fun t _ => flushed0_4_eq V c t) cover0_4

end Region0

/-! ## The second kernel -/

/-- Point t of the second kernel works on batch t: every window's block index is (t, 0, 0). -/
theorem idx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The batch a point of the second kernel works on. -/
abbrev batch1 (t : Fin cfg1.N) : Fin 16 := ⟨t.val, t.isLt⟩

section Region1
variable (V : (c : Dev nD) → (b : Ref sig .tc) → Buf (Elt Ideal) ((c : Thread nD τ).loc b))

/-- The arrays as the second kernel finds them, and its input blocks at a point, at their literal types. -/
abbrev arrA1 (c : Dev nD) : Vec Ideal S16x1024x256 .f32 := V c main_arg0
abbrev arrB1 (c : Dev nD) : Vec Ideal S16x1024x256 .f32 := V c main_arg1
abbrev blkA1 (c : Dev nD) (t : Fin cfg1.N) : Vec Ideal S1x1024x256 .f32 := iblk1 V c 0 t
abbrev blkB1 (c : Dev nD) (t : Fin cfg1.N) : Vec Ideal S1x1024x256 .f32 := iblk1 V c 1 t

/-- The first input's block at point t is batch t of the first input. -/
theorem slab_blkA1 (c : Dev nD) (t : Fin cfg1.N) : slab (B := 1) (blkA1 V c t) 0 = slab (B := 16) (arrA1 V c) (batch1 t) := by
  funext i d
  show V c main_arg0 (((cfg1.win 0).blk t).view.emb (ix3 (0 : Fin 1) i d)) = V c main_arg0 (ix3 (batch1 t) i d)
  refine congrArg _ (funext fun a => Fin.ext ?_)
  obtain ⟨e0, e1, e2, -⟩ := idx1 t
  match a with
  | ⟨0, _⟩ => show win1_0.index t (0 : Fin 3) * 1 + 1 * 0 = t.val; omega
  | ⟨1, _⟩ => show win1_0.index t (1 : Fin 3) * 1024 + 1 * i.val = i.val; omega
  | ⟨2, _⟩ => show win1_0.index t (2 : Fin 3) * 256 + 1 * d.val = d.val; omega

/-- The second input's block at point t is batch t of the second input. -/
theorem slab_blkB1 (c : Dev nD) (t : Fin cfg1.N) : slab (B := 1) (blkB1 V c t) 0 = slab (B := 16) (arrB1 V c) (batch1 t) := by
  funext i d
  show V c main_arg1 (((cfg1.win 1).blk t).view.emb (ix3 (0 : Fin 1) i d)) = V c main_arg1 (ix3 (batch1 t) i d)
  refine congrArg _ (funext fun a => Fin.ext ?_)
  obtain ⟨-, -, -, e0, e1, e2, -⟩ := idx1 t
  match a with
  | ⟨0, _⟩ => show win1_1.index t (0 : Fin 3) * 1 + 1 * 0 = t.val; omega
  | ⟨1, _⟩ => show win1_1.index t (1 : Fin 3) * 1024 + 1 * i.val = i.val; omega
  | ⟨2, _⟩ => show win1_1.index t (2 : Fin 3) * 256 + 1 * d.val = d.val; omega

/-- A block of match3 computed from batch b of both inputs is the block of the whole array of features at batch b. -/
theorem features_flush (x0 x1 : Vec Ideal S1x1024x256 .f32) (X1 X2 : Vec Ideal S16x1024x256 .f32) (b : Fin 16)
    (h0 : slab (B := 1) x0 0 = slab (B := 16) X1 b) (h1 : slab (B := 1) x1 0 = slab (B := 16) X2 b)
    (e : S1x1024x1536.Idx → S16x1024x1536.Idx) (he : ∀ (u : Fin 1) (i : Fin 1024) (k : Fin 1536), e (ix3 u i k) = ix3 b i k) :
    k1_pay1 (F := Ideal) x0 x1 = fun y => features (B := 16) X1 X2 (e y) := by
  funext y
  obtain ⟨u, i, k, rfl⟩ : ∃ (u : Fin 1) (i : Fin 1024) (k : Fin 1536), y = ix3 u i k := ⟨y 0, y 1, y 2, eq_ix3 y⟩
  have hu : u = 0 := Fin.ext (by omega)
  subst hu
  rw [FeatBlock.features_block, he, features_ix, h0, h1]

/-- Where an entry of point t's block of match3 lies in the array: batch t, same row and feature. -/
theorem emb1_2 (t : Fin cfg1.N) (u : Fin 1) (i : Fin 1024) (k : Fin 1536) :
    ((cfg1.win 2).blk t).view.emb (ix3 u i k) = ix3 (batch1 t) i k := by
  obtain ⟨-, -, -, -, -, -, e0, e1, e2⟩ := idx1 t
  funext a; apply Fin.ext
  have hu : u.val = 0 := by omega
  match a with
  | ⟨0, _⟩ => show win1_2.index t (0 : Fin 3) * 1 + 1 * u.val = t.val; omega
  | ⟨1, _⟩ => show win1_2.index t (1 : Fin 3) * 1024 + 1 * i.val = i.val; omega
  | ⟨2, _⟩ => show win1_2.index t (2 : Fin 3) * 1536 + 1 * k.val = k.val; omega

/-- What point t writes back to match3 is block t of the array of features of the inputs as the kernel finds them. -/
theorem flushed1_2_eq (c : Dev nD) (t : Fin cfg1.N) :
    (dat1 V c).flushed 2 t = ((cfg1.win 2).blk t).view.read (Elt Ideal) (features (B := 16) (arrA1 V c) (arrB1 V c)) := by
  show (cfg1.win 2).cut (grid1.coords t) ((dat1 V c).after 2 t) = _
  rw [after1_2]
  unfold out1_2
  rw [View.canon_unit_zero hz3]
  simp only [View.ld_unit_zero (S := S1x1024x256) hz3]
  exact features_flush (blkA1 V c t) (blkB1 V c t) (arrA1 V c) (arrB1 V c) (batch1 t) (slab_blkA1 V c t) (slab_blkB1 V c t)
    (fun y => ((cfg1.win 2).blk t).view.emb y) (emb1_2 t)

/-- An entry of match3 is in point t's block iff each coordinate is in the block's range. -/
theorem mem_blk1_2 (t : Fin cfg1.N) (y : S16x1024x1536.Idx) :
    y ∈ ((cfg1.win 2).blk t).view.set ↔ ∀ a : Fin 3, win1_2.index t a * S1x1024x1536.size a ≤ (y a).val
      ∧ (y a).val < win1_2.index t a * S1x1024x1536.size a + S1x1024x1536.size a := by
  show y ∈ ((View.whole main_v1).slice (win1_2.rect t)).set ↔ _
  rw [View.set_slice_whole, Rect.mem_set_unit]
  exact Iff.rfl

/-- Every entry of match3 is in the block of the point of its batch. -/
theorem cover1_2 (y : S16x1024x1536.Idx) : ∃ t : Fin cfg1.N, (cfg1.win 2).flush t = true ∧ y ∈ ((cfg1.win 2).blk t).view.set := by
  have h0 : (y 0).val < 16 := (y 0).isLt
  have h1 : (y 1).val < 1024 := (y 1).isLt
  have h2 : (y 2).val < 1536 := (y 2).isLt
  refine ⟨⟨(y 0).val, h0⟩, flush1_2 _, ?_⟩
  rw [mem_blk1_2]
  obtain ⟨-, -, -, -, -, -, e0, e1, e2⟩ := idx1 ⟨(y 0).val, h0⟩
  have e0' : win1_2.index ⟨(y 0).val, h0⟩ (0 : Fin 3) = (y 0).val := e0
  intro a
  match a with
  | ⟨0, _⟩ => show win1_2.index ⟨(y 0).val, h0⟩ (0 : Fin 3) * 1 ≤ (y 0).val ∧ (y 0).val < win1_2.index ⟨(y 0).val, h0⟩ (0 : Fin 3) * 1 + 1; omega
  | ⟨1, _⟩ => show win1_2.index ⟨(y 0).val, h0⟩ (1 : Fin 3) * 1024 ≤ (y 1).val ∧ (y 1).val < win1_2.index ⟨(y 0).val, h0⟩ (1 : Fin 3) * 1024 + 1024; omega
  | ⟨2, _⟩ => show win1_2.index ⟨(y 0).val, h0⟩ (2 : Fin 3) * 1536 ≤ (y 2).val ∧ (y 2).val < win1_2.index ⟨(y 0).val, h0⟩ (2 : Fin 3) * 1536 + 1536; omega

/-- match3 after the second kernel: the array of features of the inputs as the kernel finds them. -/
theorem final1_2 (c : Dev nD) : (dat1 V c).arrAt 2 cfg1.N = features (B := 16) (arrA1 V c) (arrB1 V c) :=
  (dat1 V c).arrAt_eq_of_cover 2 (features (B := 16) (arrA1 V c) (arrB1 V c)) (fun t _ => flushed1_2_eq V c t) cover1_2

end Region1

/-! ## The run: each result array as the specification's array of the arguments -/

section Run
variable (m : (ℓ : Loc nD τ sig) → Buf (Elt Ideal) ℓ) (ρ : Dev nD → PrngReg)

/-- The second kernel finds the two inputs as launched: the first kernel only reads them. -/
theorem V1_arg0 (c : Dev nD) : V1 m ρ c main_arg0 = m ((c.tc : Thread nD τ).loc main_arg0) :=
  ((W1_arr m ρ c 0).trans (((dat0 (V0 m ρ) c).arrAt_in 0 rfl _).trans (A_eq0 (V0 m ρ) c 0))).trans rfl
theorem V1_arg1 (c : Dev nD) : V1 m ρ c main_arg1 = m ((c.tc : Thread nD τ).loc main_arg1) :=
  ((W1_arr m ρ c 1).trans (((dat0 (V0 m ρ) c).arrAt_in 1 rfl _).trans (A_eq0 (V0 m ρ) c 1))).trans rfl

/-- match1 at the end: the second kernel does not touch it, the first leaves the cosine array of the arguments. -/
theorem end_match1 (c : Dev nD) : W2 m ρ c (Proc.devRef .tc main_v0_0)
    = cosine (B := 16) (m ((c.tc : Thread nD τ).loc main_arg0)) (m ((c.tc : Thread nD τ).loc main_arg1)) :=
  (W2_of_ne m ρ c main_v0_0 (by decide)).trans ((W1_arr m ρ c 3).trans (final0_3 (V0 m ρ) c))

/-- match2 at the end. -/
theorem end_match2 (c : Dev nD) : W2 m ρ c (Proc.devRef .tc main_v0_1)
    = bilinear (B := 16) (m ((c.tc : Thread nD τ).loc main_arg0)) (m ((c.tc : Thread nD τ).loc main_arg1)) (m ((c.tc : Thread nD τ).loc main_arg2)) :=
  (W2_of_ne m ρ c main_v0_1 (by decide)).trans ((W1_arr m ρ c 4).trans (final0_4 (V0 m ρ) c))

/-- match3 at the end: the array of features of the inputs as the second kernel finds them, which are the arguments. -/
theorem end_match3 (c : Dev nD) : W2 m ρ c (Proc.devRef .tc main_v1)
    = features (B := 16) (m ((c.tc : Thread nD τ).loc main_arg0)) (m ((c.tc : Thread nD τ).loc main_arg1)) := by
  refine ((W2_arr m ρ c 2).trans (final1_2 (V1 m ρ) c)).trans ?_
  show features (B := 16) (V1 m ρ c main_arg0) (V1 m ρ c main_arg1) = _
  rw [V1_arg0, V1_arg1]

/-- The kernel's program at the exact instance: every weakly fair execution ends with the three results at the
    specification's arrays of the arguments, and the arguments as launched. -/
theorem run_value : θ_run defs (onTc (τ := τ) (main (F := Ideal))) ⟨m, fun _ => 0, ρ⟩ (fun r => ∀ c : Dev nD,
      r.2.mem ((c.tc : Thread nD τ).loc main_v0_0) = cosine (B := 16) (m ((c.tc : Thread nD τ).loc main_arg0)) (m ((c.tc : Thread nD τ).loc main_arg1))
      ∧ r.2.mem ((c.tc : Thread nD τ).loc main_v0_1) = bilinear (B := 16) (m ((c.tc : Thread nD τ).loc main_arg0)) (m ((c.tc : Thread nD τ).loc main_arg1)) (m ((c.tc : Thread nD τ).loc main_arg2))
      ∧ r.2.mem ((c.tc : Thread nD τ).loc main_v1) = features (B := 16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (end_match1 m ρ c), (h c).2.1.trans (end_match2 m ρ c),
      (h c).2.2.1.trans (end_match3 m ρ c), (h c).2.2.2.1, (h c).2.2.2.2.1, (h c).2.2.2.2.2⟩)
    (RunNamed.run_named (F := Ideal) m ρ)

end Run

end Cert.KernelIdeal.Arrays

end
-- ==== Proof.RefValue.lean ====
/-
  The reference's three results are the specification's arrays: entry by entry, the host's operations at the exact
  instance spell the same sums, roots and quotients.
-/
import proofs.«147930_j34342558499030_1_alg».proof.Proof.Gen.ReferenceIdeal.Read
import proofs.«147930_j34342558499030_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.MatchSpec

/-- The row index a sum over features reads: batch, row, feature. -/
theorem idx_main_v2_ix (b : Fin 16) (i : Fin 1024) (k : Fin 256) : idx_main_v2 (ix2 b i) k = ix3 b i k :=
  funext fun a => Fin.ext (by match a with | ⟨0, _⟩ => rfl | ⟨1, _⟩ => rfl | ⟨2, _⟩ => rfl)

theorem idx_main_v7_ix (b : Fin 16) (i : Fin 1024) (k : Fin 256) : idx_main_v7 (ix2 b i) k = ix3 b i k :=
  funext fun a => Fin.ext (by match a with | ⟨0, _⟩ => rfl | ⟨1, _⟩ => rfl | ⟨2, _⟩ => rfl)

theorem idx_main_v20_ix (b : Fin 16) (i : Fin 1024) (k : Fin 256) : idx_main_v20 (ix2 b i) k = ix3 b i k :=
  funext fun a => Fin.ext (by match a with | ⟨0, _⟩ => rfl | ⟨1, _⟩ => rfl | ⟨2, _⟩ => rfl)

/-- The first input's sum of squares along a row. -/
theorem sqsum_left (X : (⟨S16x1024x256, .f32⟩ : BufTy).Contents (Elt Ideal)) (b : Fin 16) (i : Fin 1024) :
    val_main_v2 (F := Ideal) X (ix2 b i) = ∑ d : Fin 256, X (ix3 b i d) * X (ix3 b i d) := by
  rw [val_main_v2_apply, val_main_cst_apply, Ideal.ofBits_def, Ideal.ofBits_zero_f32, zero_add]
  refine Finset.sum_congr rfl fun k _ => ?_
  rw [val_main_v1_apply, idx_main_v2_ix]
  rfl

/-- The second input's sum of squares along a row. -/
theorem sqsum_right (X : (⟨S16x1024x256, .f32⟩ : BufTy).Contents (Elt Ideal)) (b : Fin 16) (i : Fin 1024) :
    val_main_v7 (F := Ideal) X (ix2 b i) = ∑ d : Fin 256, X (ix3 b i d) * X (ix3 b i d) := by
  rw [val_main_v7_apply, val_main_cst_1_apply, Ideal.ofBits_def, Ideal.ofBits_zero_f32, zero_add]
  refine Finset.sum_congr rfl fun k _ => ?_
  rw [val_main_v6_apply, idx_main_v7_ix]
  rfl

/-- The first input's clipped row length. -/
theorem len_left (X : (⟨S16x1024x256, .f32⟩ : BufTy).Contents (Elt Ideal)) (b : Fin 16) (i : Fin 1024) :
    val_main_v5 (F := Ideal) X (ix2 b i) = len (slab X b) i := by
  rw [val_main_v5_apply, val_main_v4_apply, sqsum_left, val_main_v3_apply, val_main_cst_0_apply]
  rfl

/-- The second input's clipped row length. -/
theorem len_right (X : (⟨S16x1024x256, .f32⟩ : BufTy).Contents (Elt Ideal)) (b : Fin 16) (i : Fin 1024) :
    val_main_v10 (F := Ideal) X (ix2 b i) = len (slab X b) i := by
  rw [val_main_v10_apply, val_main_v9_apply, sqsum_right, val_main_v8_apply, val_main_cst_2_apply]
  rfl

/-- The row products: row `i` of the first input against row `j` of the second. -/
theorem dot_ix (X1 X2 : (⟨S16x1024x256, .f32⟩ : BufTy).Contents (Elt Ideal)) (b : Fin 16) (i j : Fin 1024) :
    val_main_v0 (F := Ideal) X1 X2 (ix3 b i j) = rowDot (slab X1 b) (slab X2 b) i j := by
  rw [val_main_v0_apply]
  refine Finset.sum_congr rfl fun k _ => ?_
  rw [show lidx_main_v0 (ix3 b i j) k = ix3 b i k from
        funext fun a => Fin.ext (by match a with | ⟨0, _⟩ => rfl | ⟨1, _⟩ => rfl | ⟨2, _⟩ => rfl),
      show ridx_main_v0 (ix3 b i j) k = ix3 b j k from
        funext fun a => Fin.ext (by match a with | ⟨0, _⟩ => rfl | ⟨1, _⟩ => rfl | ⟨2, _⟩ => rfl)]
  rfl

/-- The cosine matrix. -/
theorem match1_eq (X1 X2 : (⟨S16x1024x256, .f32⟩ : BufTy).Contents (Elt Ideal)) :
    val_main_v16 (F := Ideal) X1 X2 = cosine X1 X2 := by
  funext y
  obtain ⟨b, i, j, rfl⟩ : ∃ (b : Fin 16) (i j : Fin 1024), y = ix3 b i j := ⟨y 0, y 1, y 2, eq_ix3 y⟩
  rw [cosine_ix, val_main_v16_apply, val_main_v13_apply, dot_ix, val_main_v12_apply, val_main_v11_apply,
    val_main_v15_apply, val_main_v14_apply,
    show idx_main_v11 (idx_main_v12 (ix3 b i j)) = ix2 b i from
      funext fun a => Fin.ext (by match a with | ⟨0, _⟩ => rfl | ⟨1, _⟩ => rfl),
    show idx_main_v14 (idx_main_v15 (ix3 b i j)) = ix2 b j from
      funext fun a => Fin.ext (by match a with | ⟨0, _⟩ => rfl | ⟨1, _⟩ => rfl),
    len_left, len_right]
  rfl

/-- The weighted inner products. -/
theorem match2_eq (X1 X2 : (⟨S16x1024x256, .f32⟩ : BufTy).Contents (Elt Ideal)) (W : (⟨S1024x64, .f32⟩ : BufTy).Contents (Elt Ideal)) :
    val_main_v17 (F := Ideal) X1 X2 W = bilinear X1 X2 W := by
  funext y
  obtain ⟨b, i, u, rfl⟩ : ∃ (b : Fin 16) (i : Fin 1024) (u : Fin 64), y = ix3 b i u := ⟨y 0, y 1, y 2, eq_ix3 y⟩
  rw [bilinear_ix, val_main_v17_apply]
  refine Finset.sum_congr rfl fun k _ => ?_
  rw [show lidx_main_v17 (ix3 b i u) k = ix3 b i k from
        funext fun a => Fin.ext (by match a with | ⟨0, _⟩ => rfl | ⟨1, _⟩ => rfl | ⟨2, _⟩ => rfl),
      show ridx_main_v17 (ix3 b i u) k = ix2 k u from
        funext fun a => Fin.ext (by match a with | ⟨0, _⟩ => rfl | ⟨1, _⟩ => rfl),
      dot_ix]
  rfl

/-- The sum of squares of the two inputs' difference along a row. -/
theorem diff_sqsum (X1 X2 : (⟨S16x1024x256, .f32⟩ : BufTy).Contents (Elt Ideal)) (b : Fin 16) (i : Fin 1024) :
    val_main_v20 (F := Ideal) X1 X2 (ix2 b i)
      = ∑ e : Fin 256, (X1 (ix3 b i e) - X2 (ix3 b i e)) * (X1 (ix3 b i e) - X2 (ix3 b i e)) := by
  rw [val_main_v20_apply, val_main_cst_3_apply, Ideal.ofBits_def, Ideal.ofBits_zero_f32, zero_add]
  refine Finset.sum_congr rfl fun k _ => ?_
  rw [val_main_v19_apply, val_main_v18_apply, idx_main_v20_ix]
  rfl

/-- The difference over its row's clipped length. -/
theorem unit_diff_ix (X1 X2 : (⟨S16x1024x256, .f32⟩ : BufTy).Contents (Elt Ideal)) (b : Fin 16) (i : Fin 1024) (d : Fin 256) :
    val_main_v26 (F := Ideal) X1 X2 (ix3 b i d) = unitDiff (slab X1 b) (slab X2 b) i d := by
  rw [val_main_v26_apply, val_main_v18_apply, val_main_v25_apply, val_main_v24_apply, val_main_v23_apply,
    val_main_v21_apply, val_main_v22_apply, val_main_cst_4_apply,
    show idx_main_v21 (idx_main_v25 (ix3 b i d)) = ix2 b i from
      funext fun a => Fin.ext (by match a with | ⟨0, _⟩ => rfl | ⟨1, _⟩ => rfl),
    diff_sqsum]
  rfl

/-- The six arrays joined along the feature axis, by their place in the join. -/
def pieces (X1 X2 : (⟨S16x1024x256, .f32⟩ : BufTy).Contents (Elt Ideal)) :
    Fin 6 → (⟨S16x1024x256, .f32⟩ : BufTy).Contents (Elt Ideal) := fun p =>
  match p with
  | ⟨0, _⟩ => X1
  | ⟨1, _⟩ => X2
  | ⟨2, _⟩ => val_main_v27 (F := Ideal) X1 X2
  | ⟨3, _⟩ => val_main_v28 (F := Ideal) X1 X2
  | ⟨4, _⟩ => val_main_v29 (F := Ideal) X1 X2
  | ⟨5, _⟩ => val_main_v26 (F := Ideal) X1 X2

/-- The joined array is the join of the six pieces listed by place. -/
theorem val_main_v30_ofFn (X1 X2 : (⟨S16x1024x256, .f32⟩ : BufTy).Contents (Elt Ideal)) :
    val_main_v30 (F := Ideal) X1 X2
      = concatenate S16x1024x1536 2
          (List.ofFn fun n : Fin 6 => (⟨S16x1024x256, pieces X1 X2 n⟩ : (s : Shape) × (s.Idx → Elt Ideal .f32)))
          concatenates_S16x1024x256_S16x1024x256_S16x1024x256_S16x1024x256_S16x1024x256_S16x1024x256_S16x1024x1536_d2 := rfl

/-- Piece `p` at batch `b`, row `i`, feature `d` is the specification's band `p`. -/
theorem piece_ix (X1 X2 : (⟨S16x1024x256, .f32⟩ : BufTy).Contents (Elt Ideal)) (b : Fin 16) (i : Fin 1024)
    (p : Fin 6) (d : Fin 256) :
    pieces X1 X2 p (ix3 b i d) = featPiece (slab X1 b) (slab X2 b) i p d := by
  match p with
  | ⟨0, _⟩ => rfl
  | ⟨1, _⟩ => rfl
  | ⟨2, _⟩ => rfl
  | ⟨3, _⟩ => rfl
  | ⟨4, _⟩ => rfl
  | ⟨5, _⟩ => exact unit_diff_ix X1 X2 b i d

/-- The six bands of features. -/
theorem match3_eq (X1 X2 : (⟨S16x1024x256, .f32⟩ : BufTy).Contents (Elt Ideal)) :
    val_main_v30 (F := Ideal) X1 X2 = features X1 X2 := by
  funext y
  obtain ⟨b, i, k, rfl⟩ : ∃ (b : Fin 16) (i : Fin 1024) (k : Fin 1536), y = ix3 b i k := ⟨y 0, y 1, y 2, eq_ix3 y⟩
  rw [features_ix, val_main_v30_ofFn]
  have hlt : k.val / 256 < 6 := by have := k.isLt; omega
  refine (concatenate_ofFn_apply (2 : Fin S16x1024x1536.rank) (pieces X1 X2) _ rfl 256 rfl (ix3 b i k)
    ⟨k.val / 256, hlt⟩ rfl (ix3 b i ⟨k.val % 256, Nat.mod_lt _ (by decide)⟩) rfl ?_).trans ?_
  · intro c hc
    match c with
    | ⟨0, _⟩ => rfl
    | ⟨1, _⟩ => rfl
    | ⟨2, _⟩ => exact absurd rfl hc
  · exact piece_ix X1 X2 b i ⟨k.val / 256, hlt⟩ ⟨k.val % 256, Nat.mod_lt _ (by decide)⟩

end Cert.ReferenceIdeal.RefValue

end
-- ==== Proof.lean ====
/-
  The certificate of the match layer's three results. Both programs compute, batch by batch, from the batch's two
  slabs r = x1[b] and s = x2[b] (1024 rows of 256 features) and the weights w:
    match1[b, i, j] = (⟨r i, s j⟩ / |r i|) / |s j|, with |r i| = sqrt (max (∑ d, (r i d)²) ε₆) the clipped row length;
    match2[b, i, u] = ∑ j, ⟨r i, s j⟩ · w j u;
    match3[b, i, ·] = the six bands r i, s i, r i + s i, r i · s i, |r i − s i| and (r i − s i) / sqrt (max (∑ (r i − s i)²) ε₁₂).
  The kernels take one batch per grid point: the first forms the matrix of inner products on the matrix unit, divides
  it by the row lengths spread along the columns and then along the rows, and multiplies it by the weights; the second
  forms the six bands and lays them side by side. The reference does the same with one batched product, row sums and
  broadcasts. Over the extended reals a change of float format is the identity and both sides apply the same
  operations in the same order to the same sums, so no law of arithmetic is needed beyond 0 + x = x for the reference's
  sums, and the inputs' finiteness is never used. Proof/Spec.lean states the three arrays; Proof/TopBlock.lean and
  Proof/FeatBlock.lean read the kernels' stored blocks at an entry; Proof/Arrays.lean passes from the sixteen blocks to
  the arrays; Proof/RefValue.lean reads the reference's results at an entry.
-/
import proofs.«147930_j34342558499030_1_alg».proof.Defs
import proofs.«147930_j34342558499030_1_alg».proof.Proof.Gen.Kernel
import proofs.«147930_j34342558499030_1_alg».proof.Proof.Gen.Kernel.Frame
import proofs.«147930_j34342558499030_1_alg».proof.Proof.Gen.KernelIdeal
import proofs.«147930_j34342558499030_1_alg».proof.Proof.Gen.KernelIdeal.Frame
import proofs.«147930_j34342558499030_1_alg».proof.Proof.Gen.ReferenceIdeal
import proofs.«147930_j34342558499030_1_alg».proof.Proof.Gen.Pre_finite_inputs
import proofs.«147930_j34342558499030_1_alg».proof.Proof.Gen.ReferenceIdeal.Run
import proofs.«147930_j34342558499030_1_alg».proof.Proof.Gen.ReferenceIdeal.Read
import proofs.«147930_j34342558499030_1_alg».proof.Proof.Arrays
import proofs.«147930_j34342558499030_1_alg».proof.Proof.RefValue
import Idealize.ShloMosaic.Adequacy
import Idealize.ShloMosaic.Init

noncomputable section

namespace Cert.Proof

open Idealize.ShloMosaic Idealize.ShloMosaic.TcCoe Idealize.SL.Sem Cert.MatchSpec

/-- The kernel's program as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No operation of the kernel was rewritten for the reading over the extended reals. -/
theorem preserves : Cert.preserves_Kernel_KernelIdeal := trivial

/-- From memories that agree on the arguments, both programs end with match1, match2 and match3 at the
    specification's three arrays of the arguments. -/
theorem algebraic : Cert.algebraic_KernelIdeal_ReferenceIdeal := by
  intro m ρ m' ρ' _ hagree
  refine ⟨fun c => cosine (B := 16) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => bilinear (B := 16) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => features (B := 16) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Arrays.run_value m ρ, ?_⟩
  refine (θ_run Cert.ReferenceIdeal.defs _ _).mono (fun _ h c => ?_) (Cert.ReferenceIdeal.Value.run (F := Ideal) m' ρ')
  obtain ⟨h1, h2, h3, h4, h5, h6⟩ := h c
  obtain ⟨a0, a1, a2⟩ := hagree c
  refine ⟨?_, ?_, ?_, h4, h5, h6⟩
  · rw [h1, Cert.ReferenceIdeal.Read.val_main_v16_eq, Cert.ReferenceIdeal.RefValue.match1_eq, a0, a1]
  · rw [h2, Cert.ReferenceIdeal.Read.val_main_v17_eq, Cert.ReferenceIdeal.RefValue.match2_eq, a0, a1, a2]
  · rw [h3, Cert.ReferenceIdeal.Read.val_main_v30_eq, Cert.ReferenceIdeal.RefValue.match3_eq, a0, a1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
